-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1x256x256 : Shape := ⟨4, ![512, 1, 256, 256]⟩
abbrev S512 : Shape := ⟨1, ![512]⟩
abbrev S512x2 : Shape := ⟨2, ![512, 2]⟩
abbrev S_ : Shape := ⟨0, ![]⟩

class Facts : Prop where
  bcast_S_S512x1x256x256 : S_.BroadcastsInDim S512x1x256x256 (![] : Fin 0 → Fin S512x1x256x256.rank)
  reducesTo_S512x1x256x256_S_d0_1_2_3 : S512x1x256x256.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x1x256x256 .f32) (main_arg1 : FVec F S512 .f32) (main_arg2 : IVec S512x2 32) : IVec S_ 1 :=
  let main_v0 : FVec F S512x1x256x256 .f32 := Host.absf main_arg0
  let main_cst : FVec F S_ .f32 := constant S_ .f32 0x7F800000#32
  let main_v1 : FVec F S512x1x256x256 .f32 := broadcastInDim S512x1x256x256 ![] bcast_S_S512x1x256x256 main_cst
  let main_v2 : IVec S512x1x256x256 1 := cmpf .olt main_v0 main_v1
  let main_c : IVec S_ 1 := constantI S_ 1 1#1
  let main_v3 : IVec S_ 1 := (fun x v => Host.reduce IntOp.andi x v reducesTo_S512x1x256x256_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 256#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Kernel.lean ====
abbrev S512x1x256x256 : Shape := ⟨4, ![512, 1, 256, 256]⟩
abbrev S512 : Shape := ⟨1, ![512]⟩
abbrev S512x2 : Shape := ⟨2, ![512, 2]⟩
abbrev S512x256x256 : Shape := ⟨3, ![512, 256, 256]⟩
abbrev S512x1 : Shape := ⟨2, ![512, 1]⟩
abbrev S1x256 : Shape := ⟨2, ![1, 256]⟩
abbrev S512x256 : Shape := ⟨2, ![512, 256]⟩
abbrev S1x1 : Shape := ⟨2, ![1, 1]⟩
abbrev S32x256 : Shape := ⟨2, ![32, 256]⟩
abbrev S32x256x256 : Shape := ⟨3, ![32, 256, 256]⟩
abbrev S32x1 : Shape := ⟨2, ![32, 1]⟩
abbrev S32x256x1 : Shape := ⟨3, ![32, 256, 1]⟩
abbrev S32 : Shape := ⟨1, ![32]⟩
abbrev S1 : Shape := ⟨1, ![1]⟩
abbrev S_ : Shape := ⟨0, ![]⟩

abbrev nBuf : Space → Nat
  | .hbm => 25
  | .vmem => 9
  | .smem => 0
  | _ => 0

abbrev bufTy : (tb : Table) → Fin (tcTables nBuf tb) → BufTy
  | .hbm, ⟨0, _⟩ => ⟨S512x1x256x256, .f32⟩
  | .hbm, ⟨1, _⟩ => ⟨S512, .f32⟩
  | .hbm, ⟨2, _⟩ => ⟨S512x2, .i32⟩
  | .hbm, ⟨3, _⟩ => ⟨S512x256x256, .f32⟩
  | .hbm, ⟨4, _⟩ => ⟨S512x1, .i32⟩
  | .hbm, ⟨5, _⟩ => ⟨S512, .i32⟩
  | .hbm, ⟨6, _⟩ => ⟨S512x1, .i32⟩
  | .hbm, ⟨7, _⟩ => ⟨S1x256, .i32⟩
  | .hbm, ⟨8, _⟩ => ⟨S512x256, .i32⟩
  | .hbm, ⟨9, _⟩ => ⟨S512x256, .i32⟩
  | .hbm, ⟨10, _⟩ => ⟨S512x256, .i1⟩
  | .hbm, ⟨11, _⟩ => ⟨S512x256, .f32⟩
  | .hbm, ⟨12, _⟩ => ⟨S512x1, .i32⟩
  | .hbm, ⟨13, _⟩ => ⟨S512, .i32⟩
  | .hbm, ⟨14, _⟩ => ⟨S512x1, .i32⟩
  | .hbm, ⟨15, _⟩ => ⟨S1x256, .i32⟩
  | .hbm, ⟨16, _⟩ => ⟨S512x256, .i32⟩
  | .hbm, ⟨17, _⟩ => ⟨S512x256, .i32⟩
  | .hbm, ⟨18, _⟩ => ⟨S512x256, .i1⟩
  | .hbm, ⟨19, _⟩ => ⟨S512x256, .f32⟩
  | .hbm, ⟨20, _⟩ => ⟨S512x1, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256x256, .f32⟩
  | .local _ .vmem, ⟨5, _⟩ => ⟨S32x256x256, .f32⟩
  | .local _ .vmem, ⟨6, _⟩ => ⟨S32x1, .f32⟩
  | .local _ .vmem, ⟨7, _⟩ => ⟨S32x1, .f32⟩
  | .local _ .vmem, ⟨8, _⟩ => ⟨S1x1, .f32⟩
  | _, _ => ⟨S512x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S512x1x256x256_S512x256x256 : S512x1x256x256.ShapeCasts S512x256x256
  slices_S512x2_S512x1_0_0 : S512x2.Slices ![0, 0] S512x1
  shapeCasts_S512x1_S512 : S512x1.ShapeCasts S512
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  slices_S512x2_S512x1_0_1 : S512x2.Slices ![0, 1] S512x1
  shapeCasts_S512_S512x1 : S512.ShapeCasts S512x1
  inb_S1x1_S1x1_0_0 : ∀ a, (![0, 0] : Fin 2 → Nat) a + S1x1.size a ≤ S1x1.size a
  h_S1x1 : 0 < S1x1.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x256_S32x256x1 : S32x256.ShapeCasts S32x256x1
  broadcasts_S32x256x1_S32x256x256 : S32x256x1.Broadcasts S32x256x256
  reduces_S32x256x256_S32x256 : S32x256x256.Reduces [1] S32x256
  reduces_S32x256_S32 : S32x256.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S512x256.size a
  hwx0_0 : ∀ i : grid0.Coords, EltTy.bits .f32 = 32 ∨ (Rect.block (s := S512x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S512x256.size a
  hwx0_1 : ∀ i : grid0.Coords, EltTy.bits .f32 = 32 ∨ (Rect.block (s := S512x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x256.size a ≤ S512x256x256.size a
  hwx0_2 : ∀ i : grid0.Coords, EltTy.bits .f32 = 32 ∨ (Rect.block (s := S512x256x256) S32x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S512x1.size a
  hwx0_3 : ∀ i : grid0.Coords, EltTy.bits .f32 = 32 ∨ (Rect.block (s := S512x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v3) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x1x256x256 : Shape := ⟨4, ![512, 1, 256, 256]⟩
abbrev S512 : Shape := ⟨1, ![512]⟩
abbrev S512x2 : Shape := ⟨2, ![512, 2]⟩
abbrev S512x256x256 : Shape := ⟨3, ![512, 256, 256]⟩
abbrev S512x1 : Shape := ⟨2, ![512, 1]⟩
abbrev S_ : Shape := ⟨0, ![]⟩
abbrev S512x3 : Shape := ⟨2, ![512, 3]⟩

abbrev nBuf : Space → Nat
  | .hbm => 41
  | .vmem => 0
  | .smem => 0
  | _ => 0

abbrev bufTy : (tb : Table) → Fin (tcTables nBuf tb) → BufTy
  | .hbm, ⟨0, _⟩ => ⟨S512x1x256x256, .f32⟩
  | .hbm, ⟨1, _⟩ => ⟨S512, .f32⟩
  | .hbm, ⟨2, _⟩ => ⟨S512x2, .i32⟩
  | .hbm, ⟨3, _⟩ => ⟨S512x256x256, .f32⟩
  | .hbm, ⟨4, _⟩ => ⟨S512, .i32⟩
  | .hbm, ⟨5, _⟩ => ⟨S512x1, .i32⟩
  | .hbm, ⟨6, _⟩ => ⟨S512, .i32⟩
  | .hbm, ⟨7, _⟩ => ⟨S512x1, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S512x3, .i32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S512x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S512x1x256x256_S512x256x256 : S512x1x256x256.ShapeCasts S512x256x256
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S512_S512x1_0 : S512.BroadcastsInDim S512x1 (![0] : Fin 1 → Fin S512x1.rank)
  concatenates_S512x1_S512x1_S512x1_S512x3_d1 : Shape.Concatenates [S512x1, S512x1, S512x1] S512x3 1
  reducesTo_S512_S_d0 : S512.ReducesTo [0] S_
  h_S_ : 0 < S_.numel
  gather_S512x256x256_S512x3_S512_n_012_n_n_012_1_111_wf : GatherDims.WF S512x256x256 S512x3 S512 [] [0, 1, 2] [] [0, 1, 2] [] 1 ![1, 1, 1]

variable [Facts₀]

def gather_S512x256x256_S512x3_S512_n_012_n_n_012_1_111 : GatherDims S512x256x256 S512x3 S512 where
  offsetDims := []
  collapsedSliceDims := [0, 1, 2]
  operandBatchingDims := []
  startIndicesBatchingDims := []
  startIndexMap := [0, 1, 2]
  indexVectorDim := 1
  sliceSizes := ![1, 1, 1]
  wf := gather_S512x256x256_S512x3_S512_n_012_n_n_012_1_111_wf

class Facts : Prop extends Facts₀ where

variable [Facts]
-- ==== Proof.Target.lean ====
/-
  What both programs compute, stated once over the argument arrays: the mean over the 512 samples of the squared
  difference between the prediction's pixel at the sample's centre `(cy, cx)` and the sample's target,
  `(∑ b, (pred[b, 0, cy b, cx b] − target[b])²) / 512`, on the extended reals.
  The centre coordinates are integer words; `InRange` says each, read unsigned, is below 256, which is what the
  precondition's last conjunct (`0 ≤ centers < 256`, signed) amounts to. `coord` clamps so that it is total.
-/
import Idealize.ShloMosaic.PureOps.Ideal
import Idealize.ShloMosaic.Lib.ValueIdx

noncomputable section

open scoped BigOperators

namespace Cert.CenterPixel

open Idealize.ShloMosaic Idealize.ShloMosaic.ValueIdx

abbrev PredShape : Shape := ⟨4, ![512, 1, 256, 256]⟩
abbrev TargetShape : Shape := ⟨1, ![512]⟩
abbrev CentersShape : Shape := ⟨2, ![512, 2]⟩
abbrev ScalarShape : Shape := ⟨0, ![]⟩

/-- Every centre coordinate, read as an unsigned word, is below 256 (so, read signed, it lies in `[0, 256)`). -/
def InRange (c : IVec CentersShape 32) : Prop := ∀ (b : Fin 512) (j : Fin 2), (c (ix2 b j)).toNat < 256

/-- Coordinate `j` (0: row `cy`, 1: column `cx`) of sample `b`'s centre, as an index into an axis of extent 256. -/
def coord (c : IVec CentersShape 32) (b : Fin 512) (j : Fin 2) : Fin 256 := ⟨min (c (ix2 b j)).toNat 255, by omega⟩

theorem coord_val_of_inRange {c : IVec CentersShape 32} (hc : InRange c) (b : Fin 512) (j : Fin 2) :
    (coord c b j).val = (c (ix2 b j)).toNat := by
  have := hc b j
  show min (c (ix2 b j)).toNat 255 = _
  omega

/-- Sample `b`'s squared error: (the prediction's pixel at the sample's centre − the sample's target)². -/
def sqErr (p : FVec Ideal PredShape .f32) (t : FVec Ideal TargetShape .f32) (c : IVec CentersShape 32) (b : Fin 512) : EReal :=
  (p (ix4 b (0 : Fin 1) (coord c b 0) (coord c b 1)) - t (ix1 b)) * (p (ix4 b (0 : Fin 1) (coord c b 0) (coord c b 1)) - t (ix1 b))

/-- The sum of the squared errors, as a scalar array. -/
def sumSqErr (p : FVec Ideal PredShape .f32) (t : FVec Ideal TargetShape .f32) (c : IVec CentersShape 32) :
    FVec Ideal ScalarShape .f32 := fun _ => ∑ b : Fin 512, sqErr p t c b

/-- The mean squared error: the sum divided by 512 (the word `0x44000000`), by the host's division. -/
def meanSqErr (p : FVec Ideal PredShape .f32) (t : FVec Ideal TargetShape .f32) (c : IVec CentersShape 32) :
    FVec Ideal ScalarShape .f32 :=
  Host.divf (F := Ideal) (sumSqErr p t c) (constant (F := Ideal) ScalarShape .f32 0x44000000#32)

end Cert.CenterPixel

end
-- ==== Proof.PreRange.lean ====
/-
  The precondition's last conjunct, decoded: where the printed predicate is all ones, every centre coordinate, read
  signed, lies in `[0, 256)`; read unsigned it is then below 256 (`Cert.CenterPixel.InRange`).
-/
import proofs.«407868_j11424613007985_1_alg».proof.Pre_finite_inputs
import proofs.«407868_j11424613007985_1_alg».proof.Proof.Gen.Pre_finite_inputs
import proofs.«407868_j11424613007985_1_alg».proof.Proof.Target
import Idealize.ShloMosaic.Lib.ReduceAll
import Idealize.ShloMosaic.Lib.StableHlo.Predicate

noncomputable section

open Idealize.ShloMosaic Idealize.ShloMosaic.ValueIdx

namespace Cert.CenterPixel

/-- If the printed precondition holds of the argument arrays (whatever the float instance), the centres are in range. -/
theorem inRange_of_pre [Cert.Pre_finite_inputs.Facts] {F : FTy → Type} [FloatOps F]
    (a0 : FVec F Cert.Pre_finite_inputs.S512x1x256x256 .f32) (a1 : FVec F Cert.Pre_finite_inputs.S512 .f32)
    (a2 : IVec Cert.Pre_finite_inputs.S512x2 32)
    (h : Cert.Pre_finite_inputs.fn (F := F) a0 a1 a2 = fun _ => 1#1) : InRange a2 := by
  intro b j
  -- the predicate's one word, as the conjunction the operations spell
  have h0 := congrFun h ValueIdx.ix0
  dsimp only [Cert.Pre_finite_inputs.fn] at h0
  -- its last conjunct: the reduction by `and` of the per-coordinate test is 1
  have h1 := (IntOp.andi_eq_one.1 h0).2
  haveI : Subsingleton Cert.Pre_finite_inputs.S_.Idx := ⟨fun a b => funext fun d => d.elim0⟩
  -- so the test is 1 at every coordinate, in particular at (b, j)
  have h2 := Host.reduce_andi_all _ _ _ _ _ h1 (ix2 b j)
  obtain ⟨hge, hlt⟩ := IntOp.andi_eq_one.1 h2
  -- read signed: 0 ≤ c[b, j] and c[b, j] < 256 (the broadcast constants read 0 and 256 everywhere)
  have hge' : (0#32 : BitVec 32).toInt ≤ (a2 (ix2 b j)).toInt := IntOp.cmpi_sge.1 hge
  have hlt' : (a2 (ix2 b j)).toInt < (256#32 : BitVec 32).toInt := IntOp.cmpi_slt.1 hlt
  -- a word whose signed value is in [0, 256) has that same unsigned value
  have e0 : (0#32 : BitVec 32).toInt = 0 := by decide
  have e256 : (256#32 : BitVec 32).toInt = 256 := by decide
  rw [e0] at hge'
  rw [e256] at hlt'
  rw [BitVec.toInt_eq_toNat_cond] at hge' hlt'
  have hlt32 := (a2 (ix2 b j)).isLt
  split at hge' <;> omega

end Cert.CenterPixel

end
-- ==== Proof.Pieces.lean ====
/-
  What the body leaves in the output block, point by point. At the first grid point the body stores the zero entry,
  reads it back and stores `zero + (this tile's sum of squared errors)`; at every later point it stores
  `(what the point before left) + (this tile's sum)`. So the contents after point `n` are the body's accumulating
  value folded over the tiles `0 … n` from the zero entry.
-/
import proofs.«407868_j11424613007985_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later point the output block, holding `xo`, is left at the accumulating value over `xo`. -/
theorem out_B (c : Dev nD) (i : grid0.Coords) (a1 : Memref sig .tc .vmem S32x256 .f32) (h1 : a1.IsWhole)
    (a2 : Memref sig .tc .vmem S32x256 .f32) (h2 : a2.IsWhole) (a3 : Memref sig .tc .vmem S32x256x256 .f32) (h3 : a3.IsWhole)
    (a4 : Memref sig .tc .vmem S32x1 .f32) (h4 : a4.IsWhole) (a5 : Memref sig .tc .vmem S1x1 .f32) (h5 : a5.IsWhole)
    (hc : ¬cond0_0 i) (x0 x1 : Vec F S32x256 .f32) (x2 : Vec F S32x256x256 .f32) (x3 : Vec F S32x1 .f32) (xo : Vec F S1x1 .f32) :
    out0_B_4 c i a1 h1 a2 h2 a3 h3 a4 h4 a5 h5 hc x0 x1 x2 x3 xo = k0_pay2 x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S32x256) hz2, View.ld_unit_zero (S := S32x256x256) hz3, View.ld_unit_zero (S := S32x1) hz2,
    View.ld_unit_zero (S := S1x1) hz2]

/-- At the first point the output block is left at the accumulating value over the zero entry. -/
theorem out_A (c : Dev nD) (i : grid0.Coords) (a1 : Memref sig .tc .vmem S32x256 .f32) (h1 : a1.IsWhole)
    (a2 : Memref sig .tc .vmem S32x256 .f32) (h2 : a2.IsWhole) (a3 : Memref sig .tc .vmem S32x256x256 .f32) (h3 : a3.IsWhole)
    (a4 : Memref sig .tc .vmem S32x1 .f32) (h4 : a4.IsWhole) (a5 : Memref sig .tc .vmem S1x1 .f32) (h5 : a5.IsWhole)
    (hc : cond0_0 i) (x0 x1 : Vec F S32x256 .f32) (x2 : Vec F S32x256x256 .f32) (x3 : Vec F S32x1 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S32x256) hz2, View.ld_unit_zero (S := S32x256x256) hz3, View.ld_unit_zero (S := S32x1) hz2]

variable (m : (ℓ : Loc nD τ sig) → Buf (Elt F) ℓ)

/-- The output block's contents after point `n`: the accumulating value of tile `n`'s four input blocks over what
    point `n − 1` left, the zero entry before the first point. -/
def accAt (c : Dev nD) : (n : ℕ) → n < cfg0.N → Vec F S1x1 .f32
  | 0, h => k0_pay2 (iblk m c 0 ⟨0, h⟩) (iblk m c 1 ⟨0, h⟩) (iblk m c 2 ⟨0, h⟩) (iblk m c 3 ⟨0, h⟩) (k0_pay1 (F := F))
  | n + 1, h => k0_pay2 (iblk m c 0 ⟨n + 1, h⟩) (iblk m c 1 ⟨n + 1, h⟩) (iblk m c 2 ⟨n + 1, h⟩) (iblk m c 3 ⟨n + 1, h⟩)
      (accAt c n (Nat.lt_of_succ_lt h))

/-- What the frame's run records for the output block after point `n` is that fold: by induction on the point. -/
theorem outsAt_eq (c : Dev nD) : ∀ (n : ℕ) (h : n < cfg0.N), outsAt0 m c n h = accAt m c n h
  | 0, h => (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) ((hcond0_0 ⟨0, h⟩).mpr rfl)
        (iblk m c 0 ⟨0, h⟩) (iblk m c 1 ⟨0, h⟩) (iblk m c 2 ⟨0, h⟩) (iblk m c 3 ⟨0, h⟩))
  | n + 1, h => by
    have hN : cfg0.N = 16 := N_0
    have hB : ¬(⟨n + 1, h⟩ : Fin cfg0.N).val % 16 = 0 := by dsimp only; omega
    rw [outsAt0_B m c ⟨n + 1, h⟩ hB]
    refine (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hcnd => hB ((hcond0_0 ⟨n + 1, h⟩).mp hcnd))
      (iblk m c 0 ⟨n + 1, h⟩) (iblk m c 1 ⟨n + 1, h⟩) (iblk m c 2 ⟨n + 1, h⟩) (iblk m c 3 ⟨n + 1, h⟩) _).trans ?_
    show k0_pay2 _ _ _ _ (outsAt0 m c n _) = k0_pay2 _ _ _ _ (accAt m c n _)
    rw [outsAt_eq c n]

end Cert.KernelIdeal.KV

end
-- ==== Proof.Payload.lean ====
/-
  The body's one accumulating store, read at its single entry, at the ideal instance. With `e`, `g` the blocks of the
  two indicator matrices, `x` the prediction's block, `t` the target's column block and `acc` what the output block
  held, the stored value is
      acc + ∑ r, (pick r − t r)²,    pick r = ∑ w, (∑ h, e[r, h] · x[r, h, w]) · g[r, w],
  the three `multi_reduction <add>`s being plain sums over one axis and the layout operations (casts that add a unit
  axis, the broadcast along the last axis) re-indexings.
-/
import proofs.«407868_j11424613007985_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.KV

open Cert.KernelIdeal Cert.KernelIdeal.Gen

/-! ## The layout operations at an index -/

/-- A vector of 32 stood up as a column reads, at `(r, 0)`, the vector at `r`. -/
theorem cast_col (v : FVec Ideal S32 .f32) (h : S32.ShapeCasts S32x1) (r : Fin 32) :
    shapeCast S32x1 v h (ix2 r (0 : Fin 1)) = v (ix1 r) :=
  shapeCast_apply v h _ _ (by rw [Shape.rowMajor_val_one, Shape.rowMajor_val_two]; show r.val = r.val * 1 + 0; omega)

/-- A vector of 1 as a 1 × 1 matrix reads, at `(0, 0)`, the vector's entry. -/
theorem cast_one (v : FVec Ideal S1 .f32) (h : S1.ShapeCasts S1x1) :
    shapeCast S1x1 v h (ix2 (0 : Fin 1) (0 : Fin 1)) = v (ix1 (0 : Fin 1)) :=
  shapeCast_apply v h _ _ (by rw [Shape.rowMajor_val_one, Shape.rowMajor_val_two]; rfl)

/-- A 32 × 256 matrix given a trailing unit axis reads, at `(r, k, 0)`, the matrix at `(r, k)`. -/
theorem cast_trailing (v : FVec Ideal S32x256 .f32) (h : S32x256.ShapeCasts S32x256x1) (r : Fin 32) (k : Fin 256) :
    shapeCast S32x256x1 v h (ix3 r k (0 : Fin 1)) = v (ix2 r k) :=
  shapeCast_apply v h _ _ (by
    rw [Shape.rowMajor_val_two, Shape.rowMajor_val_three]
    show r.val * 256 + k.val = (r.val * 256 + k.val) * 1 + 0
    omega)

/-- Broadcasting the trailing unit axis to 256 reads, at `(r, k, w)`, the operand at `(r, k, 0)`. -/
theorem bcast_trailing (v : FVec Ideal S32x256x1 .f32) (h : S32x256x1.Broadcasts S32x256x256) (r : Fin 32) (k w : Fin 256) :
    broadcastTo S32x256x256 v h (ix3 r k w) = v (ix3 r k (0 : Fin 1)) :=
  broadcastTo_apply v h _ _ (fun a => match a with | ⟨0, _⟩ => rfl | ⟨1, _⟩ => rfl | ⟨2, _⟩ => rfl)

/-! ## The three sums -/

/-- The sum over the middle axis of a 32 × 256 × 256 block, at `(r, w)`. -/
theorem sum_mid (y : FVec Ideal S32x256x256 .f32) (h : S32x256x256.Reduces [1] S32x256) (hφ : FKind.Formats .f32)
    (hacc : (0x00000000#32 : BitVec 32) = FKind.add.neutral .f32 hφ) (r : Fin 32) (w : Fin 256) :
    multiReduction .add [1] S32x256 y 0x00000000#32 h hφ hacc (ix2 r w) = ∑ k : Fin 256, y (ix3 r k w) :=
  (Ideal.multiReduction_add_single y _ h hφ hacc (ix2 r w)).trans
    (Finset.sum_congr rfl fun k _ => congrArg y (funext fun a => match a with | ⟨0, _⟩ => rfl | ⟨1, _⟩ => rfl | ⟨2, _⟩ => rfl))

/-- The sum over the lanes of a 32 × 256 block, at `r`. -/
theorem sum_lanes (y : FVec Ideal S32x256 .f32) (h : S32x256.Reduces [1] S32) (hφ : FKind.Formats .f32)
    (hacc : (0x00000000#32 : BitVec 32) = FKind.add.neutral .f32 hφ) (r : Fin 32) :
    multiReduction .add [1] S32 y 0x00000000#32 h hφ hacc (ix1 r) = ∑ w : Fin 256, y (ix2 r w) :=
  (Ideal.multiReduction_add_single y _ h hφ hacc (ix1 r)).trans
    (Finset.sum_congr rfl fun k _ => congrArg y (funext fun a => match a with | ⟨0, _⟩ => rfl | ⟨1, _⟩ => rfl))

/-- The sum over the 32 rows of a column, at its one entry. -/
theorem sum_rows (y : FVec Ideal S32x1 .f32) (h : S32x1.Reduces [0] S1) (hφ : FKind.Formats .f32)
    (hacc : (0x00000000#32 : BitVec 32) = FKind.add.neutral .f32 hφ) :
    multiReduction .add [0] S1 y 0x00000000#32 h hφ hacc (ix1 (0 : Fin 1)) = ∑ r : Fin 32, y (ix2 r (0 : Fin 1)) :=
  (Ideal.multiReduction_add_single y _ h hφ hacc (ix1 (0 : Fin 1))).trans
    (Finset.sum_congr rfl fun k _ => congrArg y (funext fun a => match a with | ⟨0, _⟩ => rfl | ⟨1, _⟩ => rfl))

/-! ## The stored value -/

/-- Row `r`'s picked pixel: the block's row contracted against the two indicator rows. -/
def rowPick (e g : FVec Ideal S32x256 .f32) (x : FVec Ideal S32x256x256 .f32) (r : Fin 32) : EReal :=
  ∑ w : Fin 256, (∑ h : Fin 256, e (ix2 r h) * x (ix3 r h w)) * g (ix2 r w)

/-- The picked pixel as the body computes it — indicator block with a trailing unit axis, broadcast along it, times the
    prediction block, summed over the middle axis, times the second indicator block, summed over the lanes, stood up
    as a column — read at row `r`. -/
theorem pick_apply (e g : FVec Ideal S32x256 .f32) (x : FVec Ideal S32x256x256 .f32)
    (h1 : S32x256.ShapeCasts S32x256x1) (h2 : S32x256x1.Broadcasts S32x256x256) (h3 : S32x256x256.Reduces [1] S32x256)
    (h4 : S32x256.Reduces [1] S32) (h5 : S32.ShapeCasts S32x1) (hφ : FKind.Formats .f32)
    (hacc : (0x00000000#32 : BitVec 32) = FKind.add.neutral .f32 hφ) (r : Fin 32) :
    shapeCast S32x1
        (multiReduction .add [1] S32
          (mulf (multiReduction .add [1] S32x256 (mulf (broadcastTo S32x256x256 (shapeCast S32x256x1 e h1) h2) x)
            0x00000000#32 h3 hφ hacc) g)
          0x00000000#32 h4 hφ hacc)
        h5 (ix2 r (0 : Fin 1))
      = rowPick e g x r := by
  refine (cast_col _ _ r).trans ?_
  refine (sum_lanes _ _ _ _ r).trans ?_
  refine Finset.sum_congr rfl fun w _ => ?_
  refine (mulf_apply _ g (ix2 r w)).trans ?_
  refine congrArg (· * g (ix2 r w)) ?_
  refine (sum_mid _ _ _ _ r w).trans ?_
  refine Finset.sum_congr rfl fun k _ => ?_
  refine (mulf_apply _ x (ix3 r k w)).trans ?_
  refine congrArg (· * x (ix3 r k w)) ?_
  exact (bcast_trailing _ _ r k w).trans (cast_trailing _ _ r k)

/-- The accumulating store's value at its one entry. -/
theorem pay2_apply (e g : Vec Ideal S32x256 .f32) (x : Vec Ideal S32x256x256 .f32) (t : Vec Ideal S32x1 .f32)
    (acc : Vec Ideal S1x1 .f32) :
    k0_pay2 (F := Ideal) e g x t acc (ix2 (0 : Fin 1) (0 : Fin 1))
      = acc (ix2 (0 : Fin 1) (0 : Fin 1))
        + ∑ r : Fin 32, (rowPick e g x r - t (ix2 r (0 : Fin 1))) * (rowPick e g x r - t (ix2 r (0 : Fin 1))) := by
  unfold k0_pay2
  simp only [shapeCast_self]
  refine (addf_apply _ _ _).trans ?_
  refine congrArg (acc (ix2 (0 : Fin 1) (0 : Fin 1)) + ·) ?_
  refine (cast_one _ _).trans ?_
  refine (sum_rows _ _ _ _).trans ?_
  refine Finset.sum_congr rfl fun r _ => ?_
  refine (mulf_apply _ _ _).trans ?_
  have hsub : ∀ A : FVec Ideal S32x1 .f32, A (ix2 r (0 : Fin 1)) = rowPick e g x r →
      subf A t (ix2 r (0 : Fin 1)) = rowPick e g x r - t (ix2 r (0 : Fin 1)) :=
    fun A hA => (subf_apply A t _).trans (congrArg (· - t (ix2 r (0 : Fin 1))) hA)
  exact congrArg₂ (· * ·) (hsub _ (pick_apply e g x _ _ _ _ _ _ _ r)) (hsub _ (pick_apply e g x _ _ _ _ _ _ _ r))

end Cert.KernelIdeal.KV

end
-- ==== Proof.Spec.lean ====
/-
  The arithmetic the certificate rests on, over the extended reals and free of any program.

  (1) Picking one entry of a matrix with two indicator rows: if `e` is 1 at `cy` and 0 elsewhere, and `g` is 1 at `cx`
      and 0 elsewhere, then `∑ w, (∑ h, e h * P h w) * g w = P cy cx`. Only `0 * x = 0`, `1 * x = x` and the
      additive monoid are used, so the identity holds at the infinities too: no finiteness is needed.
  (2) A sum over 512 samples is the sum over 16 tiles of the sum over the 32 rows of each tile, sample `32 τ + r` being
      row `r` of tile `τ`; and a running total started at `z + p 0` and increased by `p k` at step `k` is
      `z + ∑ k ≤ n, p k`.
-/
import Idealize.ShloMosaic.PureOps.Ideal

noncomputable section

open scoped BigOperators

namespace Cert.CenterPixel

/-- An indicator row contracted against a family picks the family's member at the marked place. -/
theorem sum_indicator_mul {n : Nat} (c : Fin n) (x : Fin n → EReal) :
    ∑ h : Fin n, (if h = c then (1 : EReal) else 0) * x h = x c := by
  rw [Finset.sum_eq_single c]
  · rw [if_pos rfl, one_mul]
  · intro h _ hne; rw [if_neg hne, zero_mul]
  · intro h; exact absurd (Finset.mem_univ _) h

/-- The same with the indicator on the right. -/
theorem sum_mul_indicator {n : Nat} (c : Fin n) (x : Fin n → EReal) :
    ∑ h : Fin n, x h * (if h = c then (1 : EReal) else 0) = x c := by
  rw [Finset.sum_eq_single c]
  · rw [if_pos rfl, mul_one]
  · intro h _ hne; rw [if_neg hne, mul_zero]
  · intro h; exact absurd (Finset.mem_univ _) h

/-- Two indicator rows pick one entry: contracting the rows of `P` against the indicator of `cy` leaves row `cy`,
    and contracting that row against the indicator of `cx` leaves `P cy cx`. -/
theorem pick_entry {n k : Nat} (P : Fin n → Fin k → EReal) (cy : Fin n) (cx : Fin k) :
    ∑ w : Fin k, (∑ h : Fin n, (if h = cy then (1 : EReal) else 0) * P h w) * (if w = cx then (1 : EReal) else 0)
      = P cy cx := by
  have inner : ∀ w : Fin k, ∑ h : Fin n, (if h = cy then (1 : EReal) else 0) * P h w = P cy w :=
    fun w => sum_indicator_mul cy fun h => P h w
  simp only [inner]
  exact sum_mul_indicator cx fun w => P cy w

/-- Sample `32 τ + r`: row `r` of tile `τ`. -/
def tileRow (τ : Fin 16) (r : Fin 32) : Fin 512 := ⟨32 * τ.val + r.val, by omega⟩

theorem tileRow_val (τ : Fin 16) (r : Fin 32) : (tileRow τ r).val = 32 * τ.val + r.val := rfl

/-- A sum over the 512 samples, tile by tile. -/
theorem sum_by_tiles (f : Fin 512 → EReal) : ∑ b : Fin 512, f b = ∑ τ : Fin 16, ∑ r : Fin 32, f (tileRow τ r) := by
  rw [← Fintype.sum_prod_type' (f := fun τ r => f (tileRow τ r))]
  refine (Fintype.sum_equiv (finProdFinEquiv (m := 16) (n := 32)) _ _ fun x => ?_).symm
  refine congrArg f (Fin.ext ?_)
  show 32 * x.1.val + x.2.val = x.2.val + 32 * x.1.val
  omega

/-- The running total after step `n` of an accumulation that starts from `z`: `z + p 0`, then `+ p k`. -/
def running (z : EReal) (p : ℕ → EReal) : ℕ → EReal
  | 0 => z + p 0
  | n + 1 => running z p n + p (n + 1)

/-- It is `z` plus the sum of the steps so far. -/
theorem running_eq (z : EReal) (p : ℕ → EReal) (n : ℕ) : running z p n = z + ∑ k ∈ Finset.range (n + 1), p k := by
  induction n with
  | zero => simp [running]
  | succ n ih => rw [running, ih, Finset.sum_range_succ _ (n + 1), add_assoc]

end Cert.CenterPixel

end
-- ==== Proof.Blocks.lean ====
/-
  The input blocks read through their windows. At grid point `t` window 0 and window 1 hold rows `32 t … 32 t + 31` of
  the two indicator matrices, window 2 the same rows of the prediction (all 256 × 256 pixels of each) and window 3 the
  same rows of the target column: entry `r` of a block is entry `32 t + r` of its array.
-/
import proofs.«407868_j11424613007985_1_alg».proof.Proof.Gen.KernelIdeal.Frame
import proofs.«407868_j11424613007985_1_alg».proof.Proof.Spec
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.KV

open Cert.KernelIdeal Cert.KernelIdeal.Gen Cert.CenterPixel

variable {F : FTy → Type} [FloatOps F]
variable (m : (ℓ : Loc nD τ sig) → Buf (Elt F) ℓ)

/-- A grid point as a tile number. -/
def tix (t : Fin cfg0.N) : Fin 16 := ⟨t.val, lt_of_lt_of_eq t.isLt N_0⟩

theorem tix_val (t : Fin cfg0.N) : (tix t).val = t.val := rfl

/-- The windows' block indices at point `t`: `t` along the sample axis, 0 along the others. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 :=
  (by decide +kernel : ∀ t : Fin grid0.N, win0_3.index t 0 = t.val ∧ win0_3.index t 1 = 0)

/-- Window 0's block at `(r, h)` is the first indicator matrix at `(32 t + r, h)`. -/
theorem iblk0_apply (c : Dev nD) (t : Fin cfg0.N) (r : Fin 32) (h : Fin 256) :
    (iblk m c 0 t : Vec F S32x256 .f32) (ix2 r h) = V m c main_v3 (ix2 (tileRow (tix t) r) h) := by
  unfold iblk
  rw [View.read_apply]
  refine congrArg (V m c main_v3) (funext fun a => Fin.ext ?_)
  match a with
  | ⟨0, _⟩ => show win0_0.index t 0 * 32 + 1 * r.val = 32 * t.val + r.val; rw [(index0 t).1]; omega
  | ⟨1, _⟩ => show win0_0.index t 1 * 256 + 1 * h.val = h.val; rw [(index0 t).2]; omega

/-- Window 1's block at `(r, w)` is the second indicator matrix at `(32 t + r, w)`. -/
theorem iblk1_apply (c : Dev nD) (t : Fin cfg0.N) (r : Fin 32) (w : Fin 256) :
    (iblk m c 1 t : Vec F S32x256 .f32) (ix2 r w) = V m c main_v6 (ix2 (tileRow (tix t) r) w) := by
  unfold iblk
  rw [View.read_apply]
  refine congrArg (V m c main_v6) (funext fun a => Fin.ext ?_)
  match a with
  | ⟨0, _⟩ => show win0_1.index t 0 * 32 + 1 * r.val = 32 * t.val + r.val; rw [(index1 t).1]; omega
  | ⟨1, _⟩ => show win0_1.index t 1 * 256 + 1 * w.val = w.val; rw [(index1 t).2]; omega

/-- Window 2's block at `(r, h, w)` is the prediction (its unit axis dropped) at `(32 t + r, h, w)`. -/
theorem iblk2_apply (c : Dev nD) (t : Fin cfg0.N) (r : Fin 32) (h w : Fin 256) :
    (iblk m c 2 t : Vec F S32x256x256 .f32) (ix3 r h w) = V m c main_v0 (ix3 (tileRow (tix t) r) h w) := by
  unfold iblk
  rw [View.read_apply]
  refine congrArg (V m c main_v0) (funext fun a => Fin.ext ?_)
  match a with
  | ⟨0, _⟩ => show win0_2.index t 0 * 32 + 1 * r.val = 32 * t.val + r.val; rw [(index2 t).1]; omega
  | ⟨1, _⟩ => show win0_2.index t 1 * 256 + 1 * h.val = h.val; rw [(index2 t).2.1]; omega
  | ⟨2, _⟩ => show win0_2.index t 2 * 256 + 1 * w.val = w.val; rw [(index2 t).2.2]; omega

/-- Window 3's block at `(r, 0)` is the target column at `(32 t + r, 0)`. -/
theorem iblk3_apply (c : Dev nD) (t : Fin cfg0.N) (r : Fin 32) :
    (iblk m c 3 t : Vec F S32x1 .f32) (ix2 r (0 : Fin 1)) = V m c main_v7 (ix2 (tileRow (tix t) r) (0 : Fin 1)) := by
  unfold iblk
  rw [View.read_apply]
  refine congrArg (V m c main_v7) (funext fun a => Fin.ext ?_)
  match a with
  | ⟨0, _⟩ => show win0_3.index t 0 * 32 + 1 * r.val = 32 * t.val + r.val; rw [(index3 t).1]; omega
  | ⟨1, _⟩ => show win0_3.index t 1 * 1 + 1 * 0 = 0; rw [(index3 t).2]

end Cert.KernelIdeal.KV

end
-- ==== Proof.HostIn.lean ====
/-
  The arrays the kernel region finds, as functions of the argument arrays: the host operations before the region build
  the two indicator matrices (row `b` of the first is 1 exactly at column `cy b`, of the second at `cx b`), drop the
  prediction's unit axis and stand the target up as a column.
-/
import proofs.«407868_j11424613007985_1_alg».proof.Proof.Gen.KernelIdeal.Frame
import proofs.«407868_j11424613007985_1_alg».proof.Proof.Target
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

open Idealize.ShloMosaic Idealize.ShloMosaic.TcCoe Idealize.SL.Sem Idealize.ShloMosaic.ValueIdx

namespace Cert.KernelIdeal.KV

open Cert.KernelIdeal Cert.KernelIdeal.Gen Cert.CenterPixel

/-! ## The operations read at an index -/

/-- A 32-bit word compared for equality and converted to a float: 1 where the words agree, else 0. -/
theorem indicatorWord (x y : BitVec 32) :
    (FloatOps.uitofp (F := Ideal) .f32 (IntOp.cmpi .eq x y) : EReal) = if x = y then (1 : EReal) else 0 := by
  show (((IntOp.cmpi .eq x y).toNat : ℝ) : EReal) = _
  by_cases hxy : x = y
  · rw [if_pos hxy, StableHlo.Predicate.cmpi_eq_iff.2 hxy]
    simp
  · rw [if_neg hxy]
    have h0 : IntOp.cmpi .eq x y = 0#1 := by
      have hne : IntOp.cmpi .eq x y ≠ 1#1 := fun h1 => hxy (StableHlo.Predicate.cmpi_eq_iff.1 h1)
      revert hne
      generalize IntOp.cmpi .eq x y = wd
      revert wd
      decide
    rw [h0]
    simp

/-- The one-hot rectangle of a vector of words `v` against the positions `0 … k − 1`: row `p` is `v p` laid along the
    row, compared with the position and converted; at `(p, q)` it is 1 where the word `v p` is `q`, else 0. -/
theorem oneHot_apply {n k : Nat}
    (h₁ : (⟨1, ![n]⟩ : Shape).BroadcastsInDim ⟨2, ![n, 1]⟩ ![0])
    (h₂ : (⟨2, ![n, 1]⟩ : Shape).BroadcastsInDim ⟨2, ![n, k]⟩ ![0, 1])
    (h₃ : (⟨2, ![1, k]⟩ : Shape).BroadcastsInDim ⟨2, ![n, k]⟩ ![0, 1])
    (v : IVec ⟨1, ![n]⟩ 32) (p : Fin n) (q : Fin k) :
    uitofp (F := Ideal) .f32 (cmpi .eq (broadcastInDim ⟨2, ![n, k]⟩ ![0, 1] h₂ (broadcastInDim ⟨2, ![n, 1]⟩ ![0] h₁ v))
        (broadcastInDim ⟨2, ![n, k]⟩ ![0, 1] h₃ (iotaInDim ⟨2, ![1, k]⟩ 32 1))) (ix2 p q)
      = if v (ix1 p) = BitVec.ofNat 32 q.val then (1 : EReal) else 0 := by
  have hij : StableHlo.Predicate.ij p q = ix2 p q := by
    funext d; match d with | ⟨0, _⟩ => rfl | ⟨1, _⟩ => rfl
  have hof : Shape.Idx.ofFin p = ix1 p := by
    funext d; match d with | ⟨0, _⟩ => rfl
  -- the word laid along the row
  have ea : broadcastInDim ⟨2, ![n, k]⟩ ![0, 1] h₂ (broadcastInDim ⟨2, ![n, 1]⟩ ![0] h₁ v) (ix2 p q) = v (ix1 p) := by
    rw [← hij, ← hof]; exact StableHlo.Predicate.bcast_rows h₁ h₂ v p q
  -- the positions laid down the column
  have eb : broadcastInDim ⟨2, ![n, k]⟩ ![0, 1] h₃ (iotaInDim ⟨2, ![1, k]⟩ 32 1) (ix2 p q) = BitVec.ofNat 32 q.val := by
    rw [← hij]; exact (StableHlo.Predicate.bcast_of_row h₃ (iotaInDim ⟨2, ![1, k]⟩ 32 1) p q).trans rfl
  show (FloatOps.uitofp (F := Ideal) .f32 (IntOp.cmpi .eq
      (broadcastInDim ⟨2, ![n, k]⟩ ![0, 1] h₂ (broadcastInDim ⟨2, ![n, 1]⟩ ![0] h₁ v) (ix2 p q))
      (broadcastInDim ⟨2, ![n, k]⟩ ![0, 1] h₃ (iotaInDim ⟨2, ![1, k]⟩ 32 1) (ix2 p q))) : EReal) = _
  rw [ea, eb]
  exact indicatorWord _ _

/-- Column `j` of an `[n, 2]` array, cut out as an `[n, 1]` column and cast to a vector, reads at `p` the array at `(p, j)`. -/
theorem column_apply {α : Type} {n : Nat} (o : Nat) (j : Fin 2) (hj : j.val = o) (x : (⟨2, ![n, 2]⟩ : Shape).Idx → α)
    (hs : (⟨2, ![n, 2]⟩ : Shape).Slices ![0, o] ⟨2, ![n, 1]⟩) (hc : (⟨2, ![n, 1]⟩ : Shape).ShapeCasts ⟨1, ![n]⟩) (p : Fin n) :
    shapeCast ⟨1, ![n]⟩ (extractStridedSlice ⟨2, ![n, 1]⟩ ![0, o] x hs) hc (ix1 p) = x (ix2 p j) := by
  refine (shapeCast_apply _ hc (ix1 p) (ix2 p (0 : Fin 1)) ?_).trans ?_
  · rw [Shape.rowMajor_val_two, Shape.rowMajor_val_one]
    show p.val * 1 + 0 = p.val
    omega
  · exact slice2_axis1_apply o x hs p (0 : Fin 1) j (by rw [hj]; rfl)

variable (m : (ℓ : Loc nD τ sig) → Buf (Elt Ideal) ℓ)

/-- The first indicator matrix (window 0's array) at `(b, h)`: 1 where the word `centers[b, 0]` is `h`, else 0. -/
theorem V_rowIndicator (c : Dev nD) (b : Fin 512) (h : Fin 256) :
    (V (F := Ideal) m c main_v3) (ix2 b h)
      = if m ((c.tc : Thread nD τ).loc main_arg2) (ix2 b (0 : Fin 2)) = BitVec.ofNat 32 h.val then (1 : EReal) else 0 := by
  -- the array is the one-hot of column 0 of the centres, as the host operations spell it
  have e : (V (F := Ideal) m c main_v3 : S512x256.Idx → EReal)
      = uitofp (F := Ideal) .f32 (cmpi .eq
          (broadcastInDim S512x256 ![0, 1] bcast_S512x1_S512x256_0_1 (broadcastInDim S512x1 ![0] bcast_S512_S512x1_0
            (shapeCast S512 (extractStridedSlice S512x1 ![0, 0]
              (m ((c.tc : Thread nD τ).loc main_arg2) : S512x2.Idx → BitVec 32) slices_S512x2_S512x1_0_0) shapeCasts_S512x1_S512)))
          (broadcastInDim S512x256 ![0, 1] bcast_S1x256_S512x256_0_1 (iotaInDim S1x256 32 1))) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  refine (congrFun e (ix2 b h)).trans ?_
  refine (oneHot_apply bcast_S512_S512x1_0 bcast_S512x1_S512x256_0_1 bcast_S1x256_S512x256_0_1 _ b h).trans ?_
  rw [column_apply 0 (0 : Fin 2) rfl _ slices_S512x2_S512x1_0_0 shapeCasts_S512x1_S512 b]

/-- The second indicator matrix (window 1's array) at `(b, w)`: 1 where the word `centers[b, 1]` is `w`, else 0. -/
theorem V_colIndicator (c : Dev nD) (b : Fin 512) (w : Fin 256) :
    (V (F := Ideal) m c main_v6) (ix2 b w)
      = if m ((c.tc : Thread nD τ).loc main_arg2) (ix2 b (1 : Fin 2)) = BitVec.ofNat 32 w.val then (1 : EReal) else 0 := by
  -- the array is the one-hot of column 1 of the centres, as the host operations spell it
  have e : (V (F := Ideal) m c main_v6 : S512x256.Idx → EReal)
      = uitofp (F := Ideal) .f32 (cmpi .eq
          (broadcastInDim S512x256 ![0, 1] bcast_S512x1_S512x256_0_1 (broadcastInDim S512x1 ![0] bcast_S512_S512x1_0
            (shapeCast S512 (extractStridedSlice S512x1 ![0, 1]
              (m ((c.tc : Thread nD τ).loc main_arg2) : S512x2.Idx → BitVec 32) slices_S512x2_S512x1_0_1) shapeCasts_S512x1_S512)))
          (broadcastInDim S512x256 ![0, 1] bcast_S1x256_S512x256_0_1 (iotaInDim S1x256 32 1))) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  refine (congrFun e (ix2 b w)).trans ?_
  refine (oneHot_apply bcast_S512_S512x1_0 bcast_S512x1_S512x256_0_1 bcast_S1x256_S512x256_0_1 _ b w).trans ?_
  rw [column_apply 1 (1 : Fin 2) rfl _ slices_S512x2_S512x1_0_1 shapeCasts_S512x1_S512 b]

/-- The prediction without its unit axis (window 2's array) at `(b, h, w)` is the prediction at `(b, 0, h, w)`. -/
theorem V_pred (c : Dev nD) (b : Fin 512) (h w : Fin 256) :
    (V (F := Ideal) m c main_v0) (ix3 b h w) = m ((c.tc : Thread nD τ).loc main_arg0) (ix4 b (0 : Fin 1) h w) := by
  -- the array is the prediction cast to the shape without the unit axis
  have e : (V (F := Ideal) m c main_v0 : S512x256x256.Idx → EReal)
      = shapeCast S512x256x256 (m ((c.tc : Thread nD τ).loc main_arg0) : S512x1x256x256.Idx → EReal)
          shapeCasts_S512x1x256x256_S512x256x256 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  refine (congrFun e (ix3 b h w)).trans ?_
  -- the two indices have the same row-major position
  refine shapeCast_apply _ shapeCasts_S512x1x256x256_S512x256x256 (ix3 b h w) (ix4 b (0 : Fin 1) h w) ?_
  rw [Shape.rowMajor_val_four, Shape.rowMajor_val_three]
  show ((b.val * 1 + 0) * 256 + h.val) * 256 + w.val = (b.val * 256 + h.val) * 256 + w.val
  omega

/-- The target as a column (window 3's array) at `(b, 0)` is the target at `b`. -/
theorem V_target (c : Dev nD) (b : Fin 512) :
    (V (F := Ideal) m c main_v7) (ix2 b (0 : Fin 1)) = m ((c.tc : Thread nD τ).loc main_arg1) (ix1 b) := by
  -- the array is the target cast to a column
  have e : (V (F := Ideal) m c main_v7 : S512x1.Idx → EReal)
      = shapeCast S512x1 (m ((c.tc : Thread nD τ).loc main_arg1) : S512.Idx → EReal) shapeCasts_S512_S512x1 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  refine (congrFun e (ix2 b (0 : Fin 1))).trans ?_
  -- the two indices have the same row-major position
  refine shapeCast_apply _ shapeCasts_S512_S512x1 (ix2 b (0 : Fin 1)) (ix1 b) ?_
  rw [Shape.rowMajor_val_two, Shape.rowMajor_val_one]
  show b.val = b.val * 1 + 0
  omega

end Cert.KernelIdeal.KV

end
-- ==== Proof.KernelValue.lean ====
/-
  The kernel's result. Under in-range centres each tile's rows pick their sample's centre pixel (the two indicator rows
  are 1 exactly at `cy` and `cx`), so tile `τ` adds `∑ r, sqErr (32 τ + r)` to the output block; after the sixteenth tile
  the block holds `∑ b, sqErr b`, it is written back once, and the host lines after the region reshape it to a scalar
  and divide by 512: the mean squared error.
-/
import proofs.«407868_j11424613007985_1_alg».proof.Proof.Pieces
import proofs.«407868_j11424613007985_1_alg».proof.Proof.Payload
import proofs.«407868_j11424613007985_1_alg».proof.Proof.Blocks
import proofs.«407868_j11424613007985_1_alg».proof.Proof.HostIn
import proofs.«407868_j11424613007985_1_alg».proof.Proof.Spec
import proofs.«407868_j11424613007985_1_alg».proof.Proof.Target
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.CenterPixel

variable (m : (ℓ : Loc nD τ sig) → Buf (Elt Ideal) ℓ) (ρ : Dev nD → PrngReg)

/-- The three argument arrays on core `c`. -/
abbrev pred (c : Dev nD) : FVec Ideal PredShape .f32 := m ((c.tc : Thread nD τ).loc main_arg0)
abbrev targ (c : Dev nD) : FVec Ideal TargetShape .f32 := m ((c.tc : Thread nD τ).loc main_arg1)
abbrev cent (c : Dev nD) : IVec CentersShape 32 := m ((c.tc : Thread nD τ).loc main_arg2)

/-- A word below 256 equals the word of `h < 256` exactly when `h` is its value. -/
theorem word_eq_iff {x : BitVec 32} (hx : x.toNat < 256) (h : Fin 256) :
    x = BitVec.ofNat 32 h.val ↔ h = (⟨min x.toNat 255, by omega⟩ : Fin 256) := by
  have hh := h.isLt
  constructor
  · intro e
    apply Fin.ext
    have hv : x.toNat = h.val := by rw [e, BitVec.toNat_ofNat]; exact Nat.mod_eq_of_lt (by omega)
    show h.val = min x.toNat 255
    omega
  · intro e
    have hv : h.val = x.toNat := by rw [e]; show min x.toNat 255 = x.toNat; omega
    apply BitVec.eq_of_toNat_eq
    rw [BitVec.toNat_ofNat, hv]
    exact (Nat.mod_eq_of_lt (by omega)).symm

/-- Row `r` of tile `t` picks its sample's centre pixel. -/
theorem pick_tile (c : Dev nD) (hc : InRange (cent m c)) (t : Fin cfg0.N) (r : Fin 32) :
    rowPick (iblk m c 0 t) (iblk m c 1 t) (iblk m c 2 t) r
      = pred m c (ix4 (tileRow (tix t) r) (0 : Fin 1) (coord (cent m c) (tileRow (tix t) r) 0)
          (coord (cent m c) (tileRow (tix t) r) 1)) := by
  -- each factor, read through its window and the host operations, in terms of the argument arrays
  have e0 : ∀ h : Fin 256, (iblk m c 0 t : Vec Ideal S32x256 .f32) (ix2 r h)
      = if h = coord (cent m c) (tileRow (tix t) r) 0 then (1 : EReal) else 0 := fun h =>
    (iblk0_apply m c t r h).trans ((V_rowIndicator m c (tileRow (tix t) r) h).trans
      (if_congr (word_eq_iff (hc (tileRow (tix t) r) 0) h) rfl rfl))
  have e1 : ∀ w : Fin 256, (iblk m c 1 t : Vec Ideal S32x256 .f32) (ix2 r w)
      = if w = coord (cent m c) (tileRow (tix t) r) 1 then (1 : EReal) else 0 := fun w =>
    (iblk1_apply m c t r w).trans ((V_colIndicator m c (tileRow (tix t) r) w).trans
      (if_congr (word_eq_iff (hc (tileRow (tix t) r) 1) w) rfl rfl))
  have e2 : ∀ h w : Fin 256, (iblk m c 2 t : Vec Ideal S32x256x256 .f32) (ix3 r h w)
      = pred m c (ix4 (tileRow (tix t) r) (0 : Fin 1) h w) := fun h w =>
    (iblk2_apply m c t r h w).trans (V_pred m c (tileRow (tix t) r) h w)
  unfold rowPick
  refine Eq.trans ?_ (pick_entry (fun h w => pred m c (ix4 (tileRow (tix t) r) (0 : Fin 1) h w))
    (coord (cent m c) (tileRow (tix t) r) 0) (coord (cent m c) (tileRow (tix t) r) 1))
  refine Finset.sum_congr rfl fun w _ => ?_
  refine congrArg₂ (· * ·) (Finset.sum_congr rfl fun h _ => congrArg₂ (· * ·) (e0 h) (e2 h w)) (e1 w)

/-- Tile `t`'s contribution: the squared errors of its 32 samples. -/
theorem tile_sum (c : Dev nD) (hc : InRange (cent m c)) (t : Fin cfg0.N) :
    ∑ r : Fin 32, (rowPick (iblk m c 0 t) (iblk m c 1 t) (iblk m c 2 t) r - (iblk m c 3 t : Vec Ideal S32x1 .f32) (ix2 r (0 : Fin 1)))
        * (rowPick (iblk m c 0 t) (iblk m c 1 t) (iblk m c 2 t) r - (iblk m c 3 t : Vec Ideal S32x1 .f32) (ix2 r (0 : Fin 1)))
      = ∑ r : Fin 32, sqErr (pred m c) (targ m c) (cent m c) (tileRow (tix t) r) := by
  refine Finset.sum_congr rfl fun r _ => ?_
  rw [pick_tile m c hc t r, iblk3_apply, V_target]
  rfl

/-- Tile `k`'s total, as a function of a natural number (0 past the grid). -/
def tileTotal (c : Dev nD) (k : ℕ) : EReal :=
  if h : k < 16 then ∑ r : Fin 32, sqErr (pred m c) (targ m c) (cent m c) (tileRow ⟨k, h⟩ r) else 0

/-- The zero entry the first point stores. -/
theorem pay1_apply : (k0_pay1 (F := Ideal)) (ix2 (0 : Fin 1) (0 : Fin 1)) = 0 := by
  show Ideal.ofBits .f32 0x00000000#32 = 0
  exact Ideal.ofBits_zero_f32

/-- The output block after point `n` holds the running total of the tiles' contributions. -/
theorem accAt_apply (c : Dev nD) (hc : InRange (cent m c)) : ∀ (n : ℕ) (h : n < cfg0.N),
    accAt m c n h (ix2 (0 : Fin 1) (0 : Fin 1)) = running 0 (tileTotal m c) n
  | 0, h => by
    rw [accAt, pay2_apply, tile_sum m c hc ⟨0, h⟩, pay1_apply, running, tileTotal, dif_pos (by decide)]
    rfl
  | n + 1, h => by
    have hN : cfg0.N = 16 := N_0
    rw [accAt, pay2_apply, tile_sum m c hc ⟨n + 1, h⟩, accAt_apply c hc n, running, tileTotal, dif_pos (by omega)]
    rfl

/-- The last grid point. -/
abbrev lastPt : Fin cfg0.N := ⟨15, by rw [show cfg0.N = 16 from N_0]; decide⟩

/-- What the output block holds after the last point, as contents of the result array (its one block is the array). -/
abbrev outArr (c : Dev nD) : Buf (Elt Ideal) ((c : Thread nD τ).loc main_v8) := accAt m c 15 (lastPt).isLt

/-- Its one entry is the sum of all 512 squared errors. -/
theorem outArr_apply (c : Dev nD) (hc : InRange (cent m c)) :
    outArr m c (ix2 (0 : Fin 1) (0 : Fin 1)) = ∑ b : Fin 512, sqErr (pred m c) (targ m c) (cent m c) b := by
  show accAt m c 15 _ (ix2 (0 : Fin 1) (0 : Fin 1)) = _
  rw [accAt_apply m c hc, running_eq, zero_add, sum_by_tiles, ← Fin.sum_univ_eq_sum_range]
  refine Finset.sum_congr rfl fun k _ => ?_
  unfold tileTotal
  rw [dif_pos k.isLt]

end Cert.KernelIdeal.KV

end
-- ==== Proof.KernelRun.lean ====
/-
  From the output block to the program's result: the block is written back once, after the last grid point, and it is
  the whole 1 × 1 result array; the host lines after the region view that array as a scalar and divide it by 512.
-/
import proofs.«407868_j11424613007985_1_alg».proof.Proof.KernelValue

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.CenterPixel

variable (m : (ℓ : Loc nD τ sig) → Buf (Elt Ideal) ℓ) (ρ : Dev nD → PrngReg)

/-- The one write-back, after the last point, writes the output block: block (0, 0) of the 1 × 1 array is the array. -/
theorem flushed_eq (c : Dev nD) (t : Fin cfg0.N) (hf : (cfg0.win 4).flush t = true) :
    (dats m 0 c).flushed 4 t = ((cfg0.win 4).blk t).view.read (Elt Ideal) (outArr m c) := by
  have hN : cfg0.N = 16 := N_0
  have h15 : t.val = 15 := by have := (flush0_4 t).mp hf; have := t.isLt; omega
  obtain rfl : t = lastPt := Fin.ext h15
  show (cfg0.win 4).cut (grid0.coords lastPt) ((dats m 0 c).after 4 lastPt) = _
  rw [after0_4, outsAt_eq]
  have hz' : (fun a => win0_4.index lastPt a * main_v8.ty.shape.size a) = fun _ => 0 :=
    funext fun a => by fin_cases a <;> decide
  exact (Memref.read_access_unit_zero (Elt Ideal) main_v8 hz' (fun a => by rw [congrFun hz' a]; simp) (outArr m c)).symm

/-- So the result array ends holding the output block's last contents. -/
theorem final_out (c : Dev nD) : (dats m 0 c).arrAt 4 cfg0.N = outArr m c :=
  (dats m 0 c).arrAt_eq_of_cover 4 (outArr m c) (flushed_eq m c) fun i =>
    ⟨lastPt, (flush0_4 lastPt).mpr rfl, by
      show i ∈ ((View.whole main_v8).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]
        omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]
        omega⟩

/-- The lines after the region: the result array as a scalar, divided by 512. -/
theorem tail_eq (c : Dev nD) :
    Pipeline.afterTail₀ cfgs (dats m) 0 (V0 m) [hostOps1] c main_v10
      = Host.divf (F := Ideal) (shapeCast S_ (outArr m c) shapeCasts_S1x1_S_) (constant (F := Ideal) S_ .f32 0x44000000#32) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.devRef .tc main_v8) = outArr m c :=
    (Pipeline.withArrays_arr spec0 launch0.win.arr_inj c _ _ 4).trans (final_out m c)
  rw [hw]
  rfl

/-- The scalar the division takes is the sum of the 512 squared errors. -/
theorem scalar_eq (c : Dev nD) (hc : InRange (cent m c)) :
    shapeCast S_ (outArr m c) shapeCasts_S1x1_S_ = sumSqErr (pred m c) (targ m c) (cent m c) := by
  funext i
  refine (shapeCast_apply (outArr m c) shapeCasts_S1x1_S_ i (ix2 (0 : Fin 1) (0 : Fin 1)) ?_).trans (outArr_apply m c hc)
  -- both shapes have one entry, at row-major position 0
  have n1 : S1x1.numel = 1 := by decide
  have n0 : S_.numel = 1 := by decide
  have h1 : (S1x1.rowMajor (ix2 (0 : Fin 1) (0 : Fin 1))).val < 1 := lt_of_lt_of_eq (S1x1.rowMajor _).isLt n1
  have h2 : (S_.rowMajor i).val < 1 := lt_of_lt_of_eq (S_.rowMajor i).isLt n0
  show (S1x1.rowMajor (ix2 (0 : Fin 1) (0 : Fin 1))).val = (S_.rowMajor i).val
  omega

/-- From any memory whose centres are in range: every weakly fair execution of the kernel's program terminates with its
    result at the mean squared error of the argument arrays, the arguments unchanged. -/
theorem run (hc : ∀ c : Dev nD, InRange (cent m c)) :
    θ_run (defs (F := Ideal)) (onTc (τ := τ) (main (F := Ideal))) ⟨m, fun _ => 0, ρ⟩ (fun r => ∀ c : Dev nD,
      r.2.mem ((c.tc : Thread nD τ).loc main_v10) = meanSqErr (pred m c) (targ m c) (cent m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v10 (Pipeline.mem_restRefs_of main_v10 (by decide) (by decide))).trans
        ((tail_eq m c).trans (by rw [scalar_eq m c (hc c)]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.LibGatherEntry.lean ====
/-
  A gather of single entries of a rank-3 array `[A, B, C]` at `R` index triples (start indices `[R, 3]`, result `[R]`):
  what `x[i, j, k]` with three index vectors lowers to. Every operand axis is collapsed and named by the start index, every
  slice is one entry, and the result has no offset axis; so result entry `r` is the operand at the triple in row `r` of
  the start indices, each component read as a signed integer and clamped into its axis, `[0, A − 1]`, `[0, B − 1]`,
  `[0, C − 1]`, as a gather clamps every start index. The result is therefore defined for every index word.
-/
import Idealize.ShloMosaic.PureOps.Ideal
import Idealize.ShloMosaic.Lib.ValueIdx

noncomputable section

namespace Cert.CenterPixel

open Idealize.ShloMosaic Idealize.ShloMosaic.ValueIdx

variable {α : Type}

/-- Dimension numbers of the entry gather: no offset axis, the operand's three axes all collapsed and all named by the
    start index, whose components lie along axis 1 of the start indices; each slice is one entry. -/
abbrev entryDims (A B C R : Nat)
    (wf : GatherDims.WF ⟨3, ![A, B, C]⟩ ⟨2, ![R, 3]⟩ ⟨1, ![R]⟩ [] [0, 1, 2] [] [0, 1, 2] [] 1 ![1, 1, 1]) :
    GatherDims ⟨3, ![A, B, C]⟩ ⟨2, ![R, 3]⟩ ⟨1, ![R]⟩ where
  offsetDims := []
  collapsedSliceDims := [0, 1, 2]
  operandBatchingDims := []
  startIndicesBatchingDims := []
  startIndexMap := [0, 1, 2]
  indexVectorDim := 1
  sliceSizes := ![1, 1, 1]
  wf := wf

/-- The entry gather at `r`: the operand at the triple `(idx[r, 0], idx[r, 1], idx[r, 2])`, each component read signed and
    clamped into its axis. -/
theorem gather_entry_apply {A B C R w : Nat} (hA : 0 < A) (hB : 0 < B) (hC : 0 < C)
    (wf : GatherDims.WF ⟨3, ![A, B, C]⟩ ⟨2, ![R, 3]⟩ ⟨1, ![R]⟩ [] [0, 1, 2] [] [0, 1, 2] [] 1 ![1, 1, 1])
    (x : (⟨3, ![A, B, C]⟩ : Shape).Idx → α) (idx : IVec ⟨2, ![R, 3]⟩ w) (r : Fin R) :
    Host.gather (entryDims A B C R wf) x idx (ix1 r)
      = x (ix3 (⟨min (idx (ix2 r (0 : Fin 3))).toInt.toNat (A - 1), by omega⟩ : Fin A)
          (⟨min (idx (ix2 r (1 : Fin 3))).toInt.toNat (B - 1), by omega⟩ : Fin B)
          (⟨min (idx (ix2 r (2 : Fin 3))).toInt.toNat (C - 1), by omega⟩ : Fin C)) := by
  -- The gather reads the operand at an index built axis by axis: clamped start + batching coordinate + offset
  -- coordinate. On each of the three axes the last two vanish (no batching axis; the axis is collapsed), and the
  -- start is the index word at `(r, axis)` clamped into the axis.
  unfold Host.gather
  congr 1
  funext a
  match a with
  | ⟨0, _⟩ =>
    refine Fin.ext ?_
    show (entryDims A B C R wf).start (ix1 r) idx 0 + (entryDims A B C R wf).batchCoord (ix1 r) 0
        + (entryDims A B C R wf).offCoord (ix1 r) 0 = _
    have hmem : (0 : Fin 3) ∈ ([0, 1, 2] : List (Fin 3)) := by decide
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos (show (0 : Fin 3) ∈ (entryDims A B C R wf).startIndexMap from hmem)]
    -- the start-indices position read for result `r`, component 0, is `(r, 0)`
    have hsi : (entryDims A B C R wf).siIdx (ix1 r) ⟨List.idxOf (0 : Fin 3) (entryDims A B C R wf).startIndexMap,
        List.idxOf_lt_length_iff.2 hmem⟩ = ix2 r (0 : Fin 3) := by
      funext c; refine Fin.ext ?_
      match c with
      | ⟨0, _⟩ => rfl
      | ⟨1, _⟩ => rfl
    rw [hsi]
    rfl
  | ⟨1, _⟩ =>
    refine Fin.ext ?_
    show (entryDims A B C R wf).start (ix1 r) idx 1 + (entryDims A B C R wf).batchCoord (ix1 r) 1
        + (entryDims A B C R wf).offCoord (ix1 r) 1 = _
    have hmem : (1 : Fin 3) ∈ ([0, 1, 2] : List (Fin 3)) := by decide
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos (show (1 : Fin 3) ∈ (entryDims A B C R wf).startIndexMap from hmem)]
    have hsi : (entryDims A B C R wf).siIdx (ix1 r) ⟨List.idxOf (1 : Fin 3) (entryDims A B C R wf).startIndexMap,
        List.idxOf_lt_length_iff.2 hmem⟩ = ix2 r (1 : Fin 3) := by
      funext c; refine Fin.ext ?_
      match c with
      | ⟨0, _⟩ => rfl
      | ⟨1, _⟩ => rfl
    rw [hsi]
    rfl
  | ⟨2, _⟩ =>
    refine Fin.ext ?_
    show (entryDims A B C R wf).start (ix1 r) idx 2 + (entryDims A B C R wf).batchCoord (ix1 r) 2
        + (entryDims A B C R wf).offCoord (ix1 r) 2 = _
    have hmem : (2 : Fin 3) ∈ ([0, 1, 2] : List (Fin 3)) := by decide
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos (show (2 : Fin 3) ∈ (entryDims A B C R wf).startIndexMap from hmem)]
    have hsi : (entryDims A B C R wf).siIdx (ix1 r) ⟨List.idxOf (2 : Fin 3) (entryDims A B C R wf).startIndexMap,
        List.idxOf_lt_length_iff.2 hmem⟩ = ix2 r (2 : Fin 3) := by
      funext c; refine Fin.ext ?_
      match c with
      | ⟨0, _⟩ => rfl
      | ⟨1, _⟩ => rfl
    rw [hsi]
    rfl

end Cert.CenterPixel

end
-- ==== Proof.RefValue.lean ====
/-
  The reference's value: under in-range centres its result is the mean squared error `Cert.CenterPixel.meanSqErr`.
-/
import proofs.«407868_j11424613007985_1_alg».proof.Defs
import proofs.«407868_j11424613007985_1_alg».proof.Proof.Gen.ReferenceIdeal
import proofs.«407868_j11424613007985_1_alg».proof.Proof.Gen.ReferenceIdeal.Run
import proofs.«407868_j11424613007985_1_alg».proof.Proof.Gen.ReferenceIdeal.Read
import proofs.«407868_j11424613007985_1_alg».proof.Proof.Target
import proofs.«407868_j11424613007985_1_alg».proof.Proof.LibGatherEntry
import Idealize.ShloMosaic.PureOps.Ideal.Laws
import Idealize.ShloMosaic.Lib.ValueIdx
import Idealize.ShloMosaic.Lib.Pipeline.Value
import Idealize.ShloMosaic.Lib.ValueIdxRank1
import Idealize.ShloMosaic.Lib.StableHlo.Predicate

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.CenterPixel

section Lemmas

open Cert.ReferenceIdeal.Read Idealize.ShloMosaic.StableHlo.Predicate
open scoped BigOperators

/-! ## Words: the negative-index wrap is the identity on a word that is not negative -/

/-- `select (w < 0) (w + k) w` (signed compare) is `w` when `w`, read unsigned, is below 2³¹. -/
theorem wrap_of_small (w k : BitVec 32) (hw : w.toNat < 2 ^ 31) :
    Scalar.select (IntOp.cmpi .slt w 0#32) (IntOp.addi w k) w = w := by
  have h : ¬ IntOp.cmpi .slt w 0#32 = 1#1 := by
    rw [slt_iff_toNat hw (by decide)]
    simp
  rw [eq_zero_of_ne_one h, select_zero]

/-- A word below 2³¹, read signed and then as a natural number, is its unsigned value. -/
theorem toInt_toNat_of_small (w : BitVec 32) (hw : w.toNat < 2 ^ 31) : w.toInt.toNat = w.toNat := by
  rw [toInt_eq_toNat_of_lt hw, Int.toNat_natCast]

/-! ## The three index columns, read at a sample -/

/-- Column 0 of the centres, flattened, at sample `b` is the word `centers[b, 0]`. -/
theorem v3_at (x2 : (⟨S512x2, .i32⟩ : BufTy).Contents (Elt Ideal)) (b : Fin 512) :
    val_main_v3 (F := Ideal) x2 (ix1 b) = x2 (ix2 b (0 : Fin 2)) := by
  rw [val_main_v3_apply, val_main_v2_apply]
  congr 1
  funext a
  match a with
  | ⟨0, _⟩ => exact Fin.ext (Nat.div_one b.val)
  | ⟨1, _⟩ => rfl

/-- Column 1 of the centres, flattened, at sample `b` is the word `centers[b, 1]`. -/
theorem v5_at (x2 : (⟨S512x2, .i32⟩ : BufTy).Contents (Elt Ideal)) (b : Fin 512) :
    val_main_v5 (F := Ideal) x2 (ix1 b) = x2 (ix2 b (1 : Fin 2)) := by
  rw [val_main_v5_apply, val_main_v4_apply]
  congr 1
  funext a
  match a with
  | ⟨0, _⟩ => exact Fin.ext (Nat.div_one b.val)
  | ⟨1, _⟩ => rfl

/-- The wrapped sample counter at `b` is the word `b`: the counter is below 512, so it is not negative. -/
theorem v10_at (b : Fin 512) : val_main_v10 (F := Ideal) (ix1 b) = BitVec.ofNat 32 b.val := by
  rw [val_main_v10_apply, val_main_v7_apply, val_main_v9_apply, val_main_v1_apply, val_main_v6_apply, val_main_c_apply]
  refine wrap_of_small _ _ ?_
  have hb : b.val < 512 := b.isLt
  show (BitVec.ofNat 32 b.val).toNat < 2 ^ 31
  rw [BitVec.toNat_ofNat]
  omega

/-- The wrapped row coordinate at `b` is the centre word itself when that word is not negative. -/
theorem v15_at (x2 : (⟨S512x2, .i32⟩ : BufTy).Contents (Elt Ideal)) (b : Fin 512)
    (h : (x2 (ix2 b (0 : Fin 2))).toNat < 2 ^ 31) :
    val_main_v15 (F := Ideal) x2 (ix1 b) = x2 (ix2 b (0 : Fin 2)) := by
  rw [val_main_v15_apply, val_main_v12_apply, val_main_v14_apply, v3_at, val_main_v11_apply, val_main_c_1_apply]
  exact wrap_of_small _ _ h

/-- The wrapped column coordinate at `b` likewise. -/
theorem v20_at (x2 : (⟨S512x2, .i32⟩ : BufTy).Contents (Elt Ideal)) (b : Fin 512)
    (h : (x2 (ix2 b (1 : Fin 2))).toNat < 2 ^ 31) :
    val_main_v20 (F := Ideal) x2 (ix1 b) = x2 (ix2 b (1 : Fin 2)) := by
  rw [val_main_v20_apply, val_main_v17_apply, val_main_v19_apply, v5_at, val_main_v16_apply, val_main_c_3_apply]
  exact wrap_of_small _ _ h

/-- The index of a `[512]` array that a `[512, 1]` broadcast reads at `(b, 0)` is `b`. -/
theorem idx21_at (b : Fin 512) : idx_main_v21 (ix2 b (0 : Fin 1)) = ix1 b := by
  funext a
  match a with
  | ⟨0, _⟩ => rfl

/-! ## The start indices `[512, 3]`: row `b` is (sample counter, wrapped row, wrapped column) -/

theorem v24_at0 (x2 : (⟨S512x2, .i32⟩ : BufTy).Contents (Elt Ideal)) (b : Fin 512) :
    val_main_v24 (F := Ideal) x2 (ix2 b (0 : Fin 3)) = val_main_v21 (F := Ideal) (ix2 b (0 : Fin 1)) := by
  unfold val_main_v24
  refine concatenate_apply_piece (1 : Fin S512x3.rank)
    [⟨S512x1, val_main_v21 (F := Ideal)⟩, ⟨S512x1, val_main_v22 (F := Ideal) x2⟩, ⟨S512x1, val_main_v23 (F := Ideal) x2⟩]
    concatenates_S512x1_S512x1_S512x1_S512x3_d1 (ix2 b (0 : Fin 3))
    0 (by show 0 < 3; omega) S512x1 _ rfl rfl 0 rfl (ix2 b (0 : Fin 1)) (fun c hc => ?_) rfl
  match c with
  | ⟨0, _⟩ => rfl
  | ⟨1, _⟩ => exact absurd rfl hc

theorem v24_at1 (x2 : (⟨S512x2, .i32⟩ : BufTy).Contents (Elt Ideal)) (b : Fin 512) :
    val_main_v24 (F := Ideal) x2 (ix2 b (1 : Fin 3)) = val_main_v22 (F := Ideal) x2 (ix2 b (0 : Fin 1)) := by
  unfold val_main_v24
  refine concatenate_apply_piece (1 : Fin S512x3.rank)
    [⟨S512x1, val_main_v21 (F := Ideal)⟩, ⟨S512x1, val_main_v22 (F := Ideal) x2⟩, ⟨S512x1, val_main_v23 (F := Ideal) x2⟩]
    concatenates_S512x1_S512x1_S512x1_S512x3_d1 (ix2 b (1 : Fin 3))
    1 (by show 1 < 3; omega) S512x1 _ rfl rfl 1 rfl (ix2 b (0 : Fin 1)) (fun c hc => ?_) rfl
  match c with
  | ⟨0, _⟩ => rfl
  | ⟨1, _⟩ => exact absurd rfl hc

theorem v24_at2 (x2 : (⟨S512x2, .i32⟩ : BufTy).Contents (Elt Ideal)) (b : Fin 512) :
    val_main_v24 (F := Ideal) x2 (ix2 b (2 : Fin 3)) = val_main_v23 (F := Ideal) x2 (ix2 b (0 : Fin 1)) := by
  unfold val_main_v24
  refine concatenate_apply_piece (1 : Fin S512x3.rank)
    [⟨S512x1, val_main_v21 (F := Ideal)⟩, ⟨S512x1, val_main_v22 (F := Ideal) x2⟩, ⟨S512x1, val_main_v23 (F := Ideal) x2⟩]
    concatenates_S512x1_S512x1_S512x1_S512x3_d1 (ix2 b (2 : Fin 3))
    2 (by show 2 < 3; omega) S512x1 _ rfl rfl 2 rfl (ix2 b (0 : Fin 1)) (fun c hc => ?_) rfl
  match c with
  | ⟨0, _⟩ => rfl
  | ⟨1, _⟩ => exact absurd rfl hc

/-! ## The reshape `[512, 1, 256, 256] → [512, 256, 256]` read at `(b, h, w)` is the array at `(b, 0, h, w)` -/

theorem idx_v0_at (a : Fin 512) (h w : Fin 256) : idx_main_v0 (ix3 a h w) = ix4 a (0 : Fin 1) h w := by
  have ha : a.val < 512 := a.isLt
  have hh : h.val < 256 := h.isLt
  have hw : w.val < 256 := w.isLt
  funext d
  match d with
  | ⟨0, _⟩ =>
    refine Fin.ext ?_
    show ((a.val * 256 + h.val) * 256 + w.val) / 65536 = a.val
    omega
  | ⟨1, _⟩ => rfl
  | ⟨2, _⟩ =>
    refine Fin.ext ?_
    show ((a.val * 256 + h.val) * 256 + w.val) / 256 % 256 = h.val
    omega
  | ⟨3, _⟩ =>
    refine Fin.ext ?_
    show ((a.val * 256 + h.val) * 256 + w.val) % 256 = w.val
    omega

/-! ## The gathered pixel -/

/-- Under in-range centres the gather's entry `b` is the prediction's pixel `pred[b, 0, cy b, cx b]`: the three index
    words of row `b` are the sample counter and the two centre words, none negative, so the wrap leaves them, the signed
    reading is the unsigned one, and the clamp into the axis is the identity. -/
theorem v25_at (x0 : (⟨S512x1x256x256, .f32⟩ : BufTy).Contents (Elt Ideal))
    (x2 : (⟨S512x2, .i32⟩ : BufTy).Contents (Elt Ideal)) (hc : InRange x2) (b : Fin 512) :
    val_main_v25 (F := Ideal) x0 x2 (ix1 b) = x0 (ix4 b (0 : Fin 1) (coord x2 b 0) (coord x2 b 1)) := by
  have hb : b.val < 512 := b.isLt
  have hy : (x2 (ix2 b (0 : Fin 2))).toNat < 256 := hc b 0
  have hx : (x2 (ix2 b (1 : Fin 2))).toNat < 256 := hc b 1
  -- the three index words of row `b`
  have w0 : val_main_v24 (F := Ideal) x2 (ix2 b (0 : Fin 3)) = BitVec.ofNat 32 b.val := by
    rw [v24_at0, val_main_v21_apply, idx21_at, v10_at]
  have w1 : val_main_v24 (F := Ideal) x2 (ix2 b (1 : Fin 3)) = x2 (ix2 b (0 : Fin 2)) := by
    rw [v24_at1, val_main_v22_apply]
    exact v15_at x2 b (by omega)
  have w2 : val_main_v24 (F := Ideal) x2 (ix2 b (2 : Fin 3)) = x2 (ix2 b (1 : Fin 2)) := by
    rw [v24_at2, val_main_v23_apply]
    exact v20_at x2 b (by omega)
  have n0 : (BitVec.ofNat 32 b.val).toNat = b.val := by
    rw [BitVec.toNat_ofNat]; omega
  -- the reshaped prediction at any triple equal to (b, cy, cx)
  have key : ∀ (p : Fin 512) (q r : Fin 256), p = b → q = coord x2 b 0 → r = coord x2 b 1 →
      val_main_v0 (F := Ideal) x0 (ix3 p q r) = x0 (ix4 b (0 : Fin 1) (coord x2 b 0) (coord x2 b 1)) := by
    rintro _ _ _ rfl rfl rfl
    rw [val_main_v0_apply, idx_v0_at]
  unfold val_main_v25
  refine (gather_entry_apply (A := 512) (B := 256) (C := 256) (R := 512) (by decide) (by decide) (by decide)
    gather_S512x256x256_S512x3_S512_n_012_n_n_012_1_111_wf (val_main_v0 (F := Ideal) x0) (val_main_v24 (F := Ideal) x2) b).trans ?_
  refine key _ _ _ (Fin.ext ?_) (Fin.ext ?_) (Fin.ext ?_)
  · show min (val_main_v24 (F := Ideal) x2 (ix2 b (0 : Fin 3))).toInt.toNat (512 - 1) = b.val
    rw [w0, toInt_toNat_of_small _ (by rw [n0]; omega), n0]
    omega
  · show min (val_main_v24 (F := Ideal) x2 (ix2 b (1 : Fin 3))).toInt.toNat (256 - 1) = (coord x2 b 0).val
    rw [w1, toInt_toNat_of_small _ (by omega), coord_val_of_inRange hc]
    omega
  · show min (val_main_v24 (F := Ideal) x2 (ix2 b (2 : Fin 3))).toInt.toNat (256 - 1) = (coord x2 b 1).val
    rw [w2, toInt_toNat_of_small _ (by omega), coord_val_of_inRange hc]
    omega

/-! ## The sum, and the result -/

/-- The reduce-add stage is the sum of the squared errors: its initial value is the zero word, and each summand is
    (gathered pixel − target)². -/
theorem v28_eq (x0 : (⟨S512x1x256x256, .f32⟩ : BufTy).Contents (Elt Ideal)) (x1 : (⟨S512, .f32⟩ : BufTy).Contents (Elt Ideal))
    (x2 : (⟨S512x2, .i32⟩ : BufTy).Contents (Elt Ideal)) (hc : InRange x2) :
    val_main_v28 (F := Ideal) x0 x1 x2 = sumSqErr x0 x1 x2 := by
  funext i
  rw [val_main_v28_apply]
  show Ideal.ofBits .f32 0x00000000#32 + ∑ j : S512.Idx, val_main_v27 (F := Ideal) x0 x1 x2 j = ∑ b : Fin 512, sqErr x0 x1 x2 b
  rw [Ideal.ofBits_zero_f32, zero_add, ← Equiv.sum_comp (idxEquiv1 (n := 512)).symm]
  refine Finset.sum_congr rfl fun b _ => ?_
  show val_main_v27 (F := Ideal) x0 x1 x2 (ix1 b) = sqErr x0 x1 x2 b
  rw [val_main_v27_apply, val_main_v26_apply, v25_at x0 x2 hc b]
  rfl

/-- The reference's result term is the mean squared error. -/
theorem result_eq (x0 : (⟨S512x1x256x256, .f32⟩ : BufTy).Contents (Elt Ideal)) (x1 : (⟨S512, .f32⟩ : BufTy).Contents (Elt Ideal))
    (x2 : (⟨S512x2, .i32⟩ : BufTy).Contents (Elt Ideal)) (hc : InRange x2) :
    val_main_v29 (F := Ideal) x0 x1 x2 = meanSqErr x0 x1 x2 := by
  unfold val_main_v29 meanSqErr
  rw [v28_eq x0 x1 x2 hc]
  rfl

end Lemmas

/-- From any memory whose centres are in range: every weakly fair execution of the reference terminates with its result
    at the mean squared error of the argument arrays, the arguments unchanged. -/
theorem run (m : (ℓ : Loc nD τ sig) → Buf (Elt Ideal) ℓ) (ρ : Dev nD → PrngReg)
    (hc : ∀ c : Dev nD, InRange (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v29)
          = meanSqErr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨(h c).1.trans ((Cert.ReferenceIdeal.Read.val_main_v29_eq _ _ _).trans (result_eq _ _ _ (hc c))), (h c).2⟩)
    (Cert.ReferenceIdeal.Value.run (F := Ideal) m ρ)

end Cert.ReferenceIdeal.RefValue

end
-- ==== Proof.lean ====
/-
  The certificate's claims assembled.
  Both programs compute the mean over the 512 samples of the squared difference between the prediction's pixel at the
  sample's centre and the sample's target. The kernel picks the pixel by contracting the sample's 256 × 256 plane
  against two indicator rows (1 at the centre's row, 1 at its column: only `0 · x = 0` and `1 · x = x` are used, so
  no finiteness is needed) and accumulates the squared differences tile by tile over 16 grid points; the reference
  gathers the pixel directly and sums once. The two agree because a sum over 512 samples is the sum over 16 tiles of 32,
  and because, under the precondition's last conjunct `0 ≤ centers < 256`, the reference's negative-index wrap and the
  gather's clamp are both the identity while each indicator row has its one at the centre's coordinate.
  The frames of the two kernel programs are the generated ones; the reference's frame is its run with the result dropped.
-/
import proofs.«407868_j11424613007985_1_alg».proof.Defs
import proofs.«407868_j11424613007985_1_alg».proof.Proof.Gen.Kernel
import proofs.«407868_j11424613007985_1_alg».proof.Proof.Gen.Kernel.Skeleton
import proofs.«407868_j11424613007985_1_alg».proof.Proof.Gen.Kernel.Launch
import proofs.«407868_j11424613007985_1_alg».proof.Proof.Gen.Kernel.Points
import proofs.«407868_j11424613007985_1_alg».proof.Proof.Gen.Kernel.Frame
import proofs.«407868_j11424613007985_1_alg».proof.Proof.Gen.KernelIdeal
import proofs.«407868_j11424613007985_1_alg».proof.Proof.Gen.KernelIdeal.Skeleton
import proofs.«407868_j11424613007985_1_alg».proof.Proof.Gen.KernelIdeal.Launch
import proofs.«407868_j11424613007985_1_alg».proof.Proof.Gen.KernelIdeal.Points
import proofs.«407868_j11424613007985_1_alg».proof.Proof.Gen.KernelIdeal.Frame
import proofs.«407868_j11424613007985_1_alg».proof.Proof.Gen.ReferenceIdeal
import proofs.«407868_j11424613007985_1_alg».proof.Proof.Gen.ReferenceIdeal.Run
import proofs.«407868_j11424613007985_1_alg».proof.Proof.Gen.Pre_finite_inputs
import proofs.«407868_j11424613007985_1_alg».proof.Proof.PreRange
import proofs.«407868_j11424613007985_1_alg».proof.Proof.KernelRun
import proofs.«407868_j11424613007985_1_alg».proof.Proof.RefValue
import Idealize.ShloMosaic.Adequacy
import Idealize.ShloMosaic.Init

noncomputable section

namespace Cert.Proof

open Idealize.ShloMosaic Idealize.SL.Sem Cert.CenterPixel

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the mean squared error of the same argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hc : ∀ c : Dev Cert.KernelIdeal.nD, InRange (m ((c.tc : Thread Cert.KernelIdeal.nD Cert.KernelIdeal.τ).loc Cert.KernelIdeal.main_arg2)) :=
    fun c => inRange_of_pre _ _ _ (hpre c)
  have hc' : ∀ c : Dev Cert.ReferenceIdeal.nD, InRange (m' ((c.tc : Thread Cert.ReferenceIdeal.nD Cert.ReferenceIdeal.τ).loc Cert.ReferenceIdeal.main_arg2)) :=
    fun c => by rw [(hagree c).2.2]; exact hc c
  refine ⟨_, Cert.KernelIdeal.KV.run m ρ hc, ?_⟩
  refine (θ_run Cert.ReferenceIdeal.defs _ _).mono (fun _ h c => ⟨(h c).1.trans ?_, (h c).2⟩)
    (Cert.ReferenceIdeal.RefValue.run m' ρ' hc')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
